-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x64x128x128 : Shape := ⟨5, ![2, 16, 64, 128, 128]⟩
abbrev S16 : Shape := ⟨1, ![16]⟩
abbrev S_ : Shape := ⟨0, ![]⟩

class Facts : Prop where
  bcast_S_S2x16x64x128x128 : S_.BroadcastsInDim S2x16x64x128x128 (![] : Fin 0 → Fin S2x16x64x128x128.rank)
  reducesTo_S2x16x64x128x128_S_d0_1_2_3_4 : S2x16x64x128x128.ReducesTo [0, 1, 2, 3, 4] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S2x16x64x128x128 .f32) (main_arg1 : FVec F S2x16x64x128x128 .f32) (main_arg2 : FVec F S16 .f32) : IVec S_ 1 :=
  let main_v0 : FVec F S2x16x64x128x128 .f32 := Host.absf main_arg0
  let main_cst : FVec F S_ .f32 := constant S_ .f32 0x7F800000#32
  let main_v1 : FVec F S2x16x64x128x128 .f32 := broadcastInDim S2x16x64x128x128 ![] bcast_S_S2x16x64x128x128 main_cst
  let main_v2 : IVec S2x16x64x128x128 1 := cmpf .olt main_v0 main_v1
  let main_c : IVec S_ 1 := constantI S_ 1 1#1
  let main_v3 : IVec S_ 1 := (fun x v => Host.reduce IntOp.andi x v reducesTo_S2x16x64x128x128_S_d0_1_2_3_4 h_S_) main_v2 main_c
  let main_v4 : FVec F S2x16x64x128x128 .f32 := Host.absf main_arg1
  let main_cst_0 : FVec F S_ .f32 := constant S_ .f32 0x7F800000#32
  let main_v5 : FVec F S2x16x64x128x128 .f32 := broadcastInDim S2x16x64x128x128 ![] bcast_S_S2x16x64x128x128 main_cst_0
  let main_v6 : IVec S2x16x64x128x128 1 := cmpf .olt main_v4 main_v5
  let main_c_1 : IVec S_ 1 := constantI S_ 1 1#1
  let main_v7 : IVec S_ 1 := (fun x v => Host.reduce IntOp.andi x v reducesTo_S2x16x64x128x128_S_d0_1_2_3_4 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Kernel.lean ====
abbrev S2x16x64x128x128 : Shape := ⟨5, ![2, 16, 64, 128, 128]⟩
abbrev S16 : Shape := ⟨1, ![16]⟩
abbrev S2x16x2x128x128 : Shape := ⟨5, ![2, 16, 2, 128, 128]⟩
abbrev S2x16x2x128 : Shape := ⟨4, ![2, 16, 2, 128]⟩
abbrev S2x16x2 : Shape := ⟨3, ![2, 16, 2]⟩
abbrev S2x16 : Shape := ⟨2, ![2, 16]⟩
abbrev S_ : Shape := ⟨0, ![]⟩

abbrev nBuf : Space → Nat
  | .hbm => 13
  | .vmem => 5
  | .smem => 0
  | _ => 0

abbrev bufTy : (tb : Table) → Fin (tcTables nBuf tb) → BufTy
  | .hbm, ⟨0, _⟩ => ⟨S2x16x64x128x128, .f32⟩
  | .hbm, ⟨1, _⟩ => ⟨S2x16x64x128x128, .f32⟩
  | .hbm, ⟨2, _⟩ => ⟨S16, .f32⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S2x16x2x128x128, .f32⟩
  | .local _ .vmem, ⟨1, _⟩ => ⟨S2x16x2x128x128, .f32⟩
  | .local _ .vmem, ⟨2, _⟩ => ⟨S2x16x2x128x128, .f32⟩
  | .local _ .vmem, ⟨3, _⟩ => ⟨S2x16x2x128x128, .f32⟩
  | .local _ .vmem, ⟨4, _⟩ => ⟨S16, .f32⟩
  | _, _ => ⟨S2x16x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S2x16x2x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x16x2x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S16_S16_0 : ∀ a, (![0] : Fin 1 → Nat) a + S16.size a ≤ S16.size a
  h_S16 : 0 < S16.numel
  inb_S2x16x2x128x128_S2x16x2x128x128_0_0_0_0_0 : ∀ a, (![0, 0, 0, 0, 0] : Fin 5 → Nat) a + S2x16x2x128x128.size a ≤ S2x16x2x128x128.size a
  h_S2x16x2x128x128 : 0 < S2x16x2x128x128.numel
  reduces_S2x16x2x128x128_S2x16x2x128 : S2x16x2x128x128.Reduces [4] S2x16x2x128
  reduces_S2x16x2x128_S2x16x2 : S2x16x2x128.Reduces [3] S2x16x2
  reduces_S2x16x2_S2x16 : S2x16x2.Reduces [2] S2x16
  reduces_S2x16_S16 : S2x16.Reduces [0] S16
  shapeCasts_S16_S16 : S16.ShapeCasts S16
  bcast_S_S16 : S_.BroadcastsInDim S16 (![] : Fin 0 → Fin S16.rank)
  reducesTo_S16_S_d0 : S16.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x16x2x128x128.size a ≤ S2x16x64x128x128.size a
  hwx0_0 : ∀ i : grid0.Coords, EltTy.bits .f32 = 32 ∨ (Rect.block (s := S2x16x64x128x128) S2x16x2x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x16x2x128x128.size a ≤ S2x16x64x128x128.size a
  hwx0_1 : ∀ i : grid0.Coords, EltTy.bits .f32 = 32 ∨ (Rect.block (s := S2x16x64x128x128) S2x16x2x128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16.size a ≤ S16.size a
  hwx0_2 : ∀ i : grid0.Coords, EltTy.bits .f32 = 32 ∨ (Rect.block (s := S16) S16.size (cc0_transform_2 i) (hinb0_2 i)).WholeWords (EltTy.packing .f32)

variable [Facts₀]

abbrev win0_0 : Pipeline.Window sig grid0 :=
  Pipeline.Window.ofSpec (Memref.whole main_arg0) S2x16x2x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x16x2x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x16x64x128x128 : Shape := ⟨5, ![2, 16, 64, 128, 128]⟩
abbrev S16 : Shape := ⟨1, ![16]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S2x16x64x128x128, .f32⟩
  | .hbm, ⟨1, _⟩ => ⟨S2x16x64x128x128, .f32⟩
  | .hbm, ⟨2, _⟩ => ⟨S16, .f32⟩
  | .hbm, ⟨3, _⟩ => ⟨S2x16x64x128x128, .f32⟩
  | .hbm, ⟨4, _⟩ => ⟨S_, .f32⟩
  | .hbm, ⟨5, _⟩ => ⟨S2x16x64x128x128, .f32⟩
  | .hbm, ⟨6, _⟩ => ⟨S2x16x64x128x128, .f32⟩
  | .hbm, ⟨7, _⟩ => ⟨S2x16x64x128x128, .f32⟩
  | .hbm, ⟨8, _⟩ => ⟨S2x16x64x128x128, .f32⟩
  | .hbm, ⟨9, _⟩ => ⟨S_, .f32⟩
  | .hbm, ⟨10, _⟩ => ⟨S2x16x64x128x128, .f32⟩
  | .hbm, ⟨11, _⟩ => ⟨S2x16x64x128x128, .f32⟩
  | .hbm, ⟨12, _⟩ => ⟨S2x16x64x128x128, .f32⟩
  | .hbm, ⟨13, _⟩ => ⟨S_, .f32⟩
  | .hbm, ⟨14, _⟩ => ⟨S2x16x64x128x128, .f32⟩
  | .hbm, ⟨15, _⟩ => ⟨S2x16x64x128x128, .f32⟩
  | .hbm, ⟨16, _⟩ => ⟨S2x16x64x128x128, .f32⟩
  | .hbm, ⟨17, _⟩ => ⟨S2x16x64x128x128, .f32⟩
  | .hbm, ⟨18, _⟩ => ⟨S2x16x64x128x128, .f32⟩
  | .hbm, ⟨19, _⟩ => ⟨S_, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | _, _ => ⟨S2x16x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  bcast_S_S2x16x64x128x128 : S_.BroadcastsInDim S2x16x64x128x128 (![] : Fin 0 → Fin S2x16x64x128x128.rank)
  reducesTo_S2x16x64x128x128_S16_d0_2_3_4 : S2x16x64x128x128.ReducesTo [0, 2, 3, 4] S16
  h_S_ : 0 < S_.numel
  bcast_S_S16 : S_.BroadcastsInDim S16 (![] : Fin 0 → Fin S16.rank)
  reducesTo_S16_S_d0 : S16.ReducesTo [0] S_

variable [Facts₀]

class Facts : Prop extends Facts₀ where

variable [Facts]
-- ==== Proof.LibFibreSums.lean ====
/-
  Sums over the fibres of a projection: a general lemma file.

  A sum reduction over some axes of an array, read over the extended reals (or in any commutative additive
  monoid), adds up the operand's entries over the set of source indices that project to the result index: the
  fibre of the projection above that index.  `fibreSum d x j` is that sum for any projection `d`.  Two such
  reductions in a row add up over the fibres of the composed projection (`fibreSum_comp`): addition is
  commutative and associative, so no side condition (finiteness, order) is needed.  A fibre sum depends on the
  projection only through which indices it sends to the result index (`fibreSum_congr`), so a chain of
  reductions and a single reduction over several axes agree as soon as their fibres do.  A kernel's
  `multi_reduction <add>` at the ideal instance is the fibre sum of its index projection, by definition
  (`multiReduction_add_eq_fibreSum`).
-/
import Idealize.ShloMosaic.PureOps.Ideal.Laws

noncomputable section

open scoped BigOperators

namespace Cert.LibFibreSums

open Idealize.ShloMosaic

/-! ## Sums over fibres -/

/-- The sum of `x` over the fibre of `d` above `j`. -/
def fibreSum {A B M : Type} [Fintype A] [DecidableEq B] [AddCommMonoid M] (d : A → B) (x : A → M) (j : B) : M :=
  ∑ i ∈ Finset.univ.filter (fun i => d i = j), x i

/-- Summing fibre sums of `d` over a fibre of `e` is summing over the fibre of `e ∘ d`. -/
theorem fibreSum_comp {A B C M : Type} [Fintype A] [Fintype B] [DecidableEq B] [DecidableEq C] [AddCommMonoid M]
    (d : A → B) (e : B → C) (x : A → M) (j : C) :
    fibreSum e (fibreSum d x) j = fibreSum (fun i => e (d i)) x j := by
  unfold fibreSum
  rw [← Finset.sum_fiberwise_of_maps_to (s := Finset.univ.filter (fun i => e (d i) = j))
    (t := Finset.univ.filter (fun b => e b = j)) (g := d) (f := x)
    (fun i hi => Finset.mem_filter.2 ⟨Finset.mem_univ _, (Finset.mem_filter.1 hi).2⟩)]
  refine Finset.sum_congr rfl fun b hb => Finset.sum_congr ?_ fun _ _ => rfl
  have hb' : e b = j := (Finset.mem_filter.1 hb).2
  ext i
  simp only [Finset.mem_filter, Finset.mem_univ, true_and]
  exact ⟨fun h => ⟨by rw [h, hb'], h⟩, fun h => h.2⟩

/-- Fibre sums depend on the projection only through which indices it sends to `j`. -/
theorem fibreSum_congr {A B B' M : Type} [Fintype A] [DecidableEq B] [DecidableEq B'] [AddCommMonoid M]
    (d : A → B) (d' : A → B') (x : A → M) (j : B) (j' : B') (h : ∀ i, d i = j ↔ d' i = j') :
    fibreSum d x j = fibreSum d' x j' := by
  unfold fibreSum
  refine Finset.sum_congr ?_ fun _ _ => rfl
  ext i
  simp only [Finset.mem_filter, Finset.mem_univ, true_and]
  exact h i

/-- At the extended reals a sum reduction is the fibre sum of its projection. -/
theorem multiReduction_add_eq_fibreSum {s t : Shape} {axes : List (Fin s.rank)} {φ : FTy} (src : FVec Ideal s φ)
    (acc : BitVec φ.bits) (h : s.Reduces axes t) (hφ : FKind.Formats φ) (hacc : acc = FKind.add.neutral φ hφ) :
    multiReduction .add axes t src acc h hφ hacc = fibreSum h.drop src := rfl

end Cert.LibFibreSums

end
-- ==== Proof.TileSums.lean ====
/-
  Sums over the fibres of a projection, and the tiling of a [2, 16, 64, 128, 128] array by thirty-two
  [2, 16, 2, 128, 128] slabs along its depth axis.

  A sum reduction, read over the extended reals, adds up the entries of its operand over the set of source
  indices that project to the result index, and two such reductions in a row add up over the fibres of the
  composed projection (Proof/LibFibreSums.lean), because extended-real addition is commutative and
  associative — no finiteness is needed.  For the shapes at hand every projection keeps the channel coordinate (axis 1) and
  nothing else, so each reduction chain is "the sum over all indices whose channel is `c`" (`chanSum`).
  Finally the channel sum over the whole array splits as the sum, over the thirty-two depth slabs, of the
  channel sums of the slabs (`sum_slabs`): depth `d` is `2 t + r` for exactly one slab `t` and one depth
  `r < 2` inside it.
-/
import proofs.«137222_j21577915695561_1_alg».proof.Proof.LibFibreSums
import Idealize.ShloMosaic.PureOps.Ideal.Laws
import Idealize.ShloMosaic.Lib.ValueIdx
import Idealize.ShloMosaic.Lib.IdealHost

noncomputable section

open scoped BigOperators

namespace Cert.TileSums

open Idealize.ShloMosaic Idealize.ShloMosaic.ValueIdx Cert.LibFibreSums

/-! ## The shapes -/

abbrev Sarr : Shape := ⟨5, ![2, 16, 64, 128, 128]⟩
abbrev Sslab : Shape := ⟨5, ![2, 16, 2, 128, 128]⟩
abbrev S4 : Shape := ⟨4, ![2, 16, 2, 128]⟩
abbrev S3 : Shape := ⟨3, ![2, 16, 2]⟩
abbrev S2 : Shape := ⟨2, ![2, 16]⟩
abbrev Sch : Shape := ⟨1, ![16]⟩

/-- The sum of `x` over the indices of a rank-5 array whose channel (axis 1) is `c`. -/
def chanSum {n0 n2 n3 n4 : Nat} (x : (⟨5, ![n0, 16, n2, n3, n4]⟩ : Shape).Idx → EReal) (c : ℕ) : EReal :=
  fibreSum (fun i : (⟨5, ![n0, 16, n2, n3, n4]⟩ : Shape).Idx => (i 1).val) x c

/-! ## A kernel's four lane sums in a row, and the host's one sum over four axes -/

/-- Summing a slab over its lanes, then its rows, then its two depths, then its two batch entries leaves, per
    channel, the sum of the slab's entries of that channel. -/
theorem slab_reductions (x : FVec Ideal Sslab .f32) (acc4 acc3 acc2 acc1 : BitVec 32)
    (h4 : Sslab.Reduces [4] S4) (h3 : S4.Reduces [3] S3) (h2 : S3.Reduces [2] S2) (h0 : S2.Reduces [0] Sch)
    (hφ : FKind.Formats .f32) (e4 : acc4 = FKind.add.neutral .f32 hφ) (e3 : acc3 = FKind.add.neutral .f32 hφ)
    (e2 : acc2 = FKind.add.neutral .f32 hφ) (e1 : acc1 = FKind.add.neutral .f32 hφ) (j : Sch.Idx) :
    multiReduction .add [0] Sch (multiReduction .add [2] S2 (multiReduction .add [3] S3
      (multiReduction .add [4] S4 x acc4 h4 hφ e4) acc3 h3 hφ e3) acc2 h2 hφ e2) acc1 h0 hφ e1 j
      = chanSum x (j 0).val := by
  rw [multiReduction_add_eq_fibreSum, multiReduction_add_eq_fibreSum, multiReduction_add_eq_fibreSum,
    multiReduction_add_eq_fibreSum, fibreSum_comp, fibreSum_comp, fibreSum_comp]
  unfold chanSum
  refine fibreSum_congr _ _ _ _ _ fun i => ?_
  have hv : ((h0.drop (h2.drop (h3.drop (h4.drop i)))) 0).val = (i 1).val := by
    rw [h0.drop_apply_val_of_eq _ 0 1, h2.drop_apply_val_of_eq _ 1 1, h3.drop_apply_val_of_eq _ 1 1,
      h4.drop_apply_val_of_eq _ 1 1]
  constructor
  · intro h; rw [← hv, h]
  · intro h; funext b
    match b with
    | ⟨0, _⟩ => exact Fin.ext (hv.trans h)

/-- The host's sum over batch, depth, rows and lanes from the initial value `init`: per channel, `init` plus
    the sum of the array's entries of that channel. -/
theorem host_reduction (x : FVec Ideal Sarr .f32) (init : EReal) (h : Sarr.ReducesTo [0, 2, 3, 4] Sch) (j : Sch.Idx) :
    Ideal.hostReduceAdd h x init j = init + chanSum x (j 0).val := by
  unfold Ideal.hostReduceAdd chanSum
  refine congrArg (init + ·) (fibreSum_congr (fun i => h.drop i) _ x j (j 0).val fun i => ?_)
  have hv : ((h.drop i) 0).val = (i 1).val := h.drop_apply_val_of_eq i 0 1
  constructor
  · intro e; rw [← hv, e]
  · intro e; funext b
    match b with
    | ⟨0, _⟩ => exact Fin.ext (hv.trans e)

/-! ## The slabs tile the array -/

/-- Where entry `a` of slab `t` sits in the array: depth `2 t + a₂`, every other coordinate as it is. -/
def place (t : Fin 32) (a : Sslab.Idx) : Sarr.Idx :=
  ix5 (a 0) (a 1) ⟨2 * t.val + (a 2).val, by have h2 : (a 2).val < 2 := (a 2).isLt; have := t.isLt; omega⟩ (a 3) (a 4)

/-- The slab an array index lies in, and its index inside that slab. -/
def slabOf (i : Sarr.Idx) : Fin 32 × Sslab.Idx :=
  (⟨(i 2).val / 2, by have h2 : (i 2).val < 64 := (i 2).isLt; omega⟩,
    ix5 (i 0) (i 1) ⟨(i 2).val % 2, Nat.mod_lt _ (by decide)⟩ (i 3) (i 4))

theorem place_slabOf (i : Sarr.Idx) : place (slabOf i).1 (slabOf i).2 = i := by
  funext b
  match b with
  | ⟨0, _⟩ => rfl
  | ⟨1, _⟩ => rfl
  | ⟨2, _⟩ => exact Fin.ext (show 2 * ((i 2).val / 2) + (i 2).val % 2 = (i 2).val by omega)
  | ⟨3, _⟩ => rfl
  | ⟨4, _⟩ => rfl

theorem slabOf_place (t : Fin 32) (a : Sslab.Idx) : slabOf (place t a) = (t, a) := by
  have h2 : (a 2).val < 2 := (a 2).isLt
  refine Prod.ext (Fin.ext (show (2 * t.val + (a 2).val) / 2 = t.val by omega)) ?_
  funext b
  match b with
  | ⟨0, _⟩ => rfl
  | ⟨1, _⟩ => rfl
  | ⟨2, _⟩ => exact Fin.ext (show (2 * t.val + (a 2).val) % 2 = (a 2).val by omega)
  | ⟨3, _⟩ => rfl
  | ⟨4, _⟩ => rfl

/-- The channel sum of the array is the sum over the slabs of the slabs' channel sums. -/
theorem sum_slabs (x : Sarr.Idx → EReal) (c : ℕ) :
    ∑ t : Fin 32, chanSum (fun a : Sslab.Idx => x (place t a)) c = chanSum x c := by
  unfold chanSum fibreSum
  beta_reduce
  rw [← Finset.sum_product']
  refine Finset.sum_nbij' (fun p => place p.1 p.2) slabOf ?_ ?_ ?_ ?_ ?_
  · intro p hp
    exact Finset.mem_filter.2 ⟨Finset.mem_univ _, (Finset.mem_filter.1 (Finset.mem_product.1 hp).2).2⟩
  · intro i hi
    exact Finset.mem_product.2 ⟨Finset.mem_univ _, Finset.mem_filter.2 ⟨Finset.mem_univ _, (Finset.mem_filter.1 hi).2⟩⟩
  · intro p _; exact slabOf_place p.1 p.2
  · intro i _; exact place_slabOf i
  · intro p _; rfl

end Cert.TileSums

end
-- ==== Proof.Loss.lean ====
/-
  The per-element loss both programs sum: the binary cross-entropy of a prediction `p` against a target `y`
  with both logarithms clamped below at -100,

      bce p y = -( y · max (log p) (-100) + (1 - y) · max (log (1 + (-p))) (-100) ),

  over the extended reals.  The kernel negates by subtracting from zero (`0 - x`), the reference by the unary
  minus; on the extended reals `0 - x = -x` for every `x`, the infinities included, so the two spellings are one
  function (`bce_eq_neg`).  The constants -100, 0 and 1 are kept as their bit patterns: both sides carry the same
  patterns, and only zero's value is ever needed.
-/
import Idealize.ShloMosaic.PureOps.Ideal.Laws

noncomputable section

namespace Cert.Loss

open Idealize.ShloMosaic

/-- The clamped cross-entropy term, negated by subtraction from zero. -/
def bce (p y : EReal) : EReal :=
  Ideal.ofBits .f32 0x00000000#32
    - (y * max (Ideal.log p) (Ideal.ofBits .f32 0xC2C80000#32)
        + (Ideal.ofBits .f32 0x3F800000#32 - y)
            * max (Ideal.log1p (Ideal.ofBits .f32 0x00000000#32 - p)) (Ideal.ofBits .f32 0xC2C80000#32))

/-- The same term with both negations written as unary minus. -/
theorem bce_eq_neg (p y : EReal) :
    bce p y = -(y * max (Ideal.log p) (Ideal.ofBits .f32 0xC2C80000#32)
        + (Ideal.ofBits .f32 0x3F800000#32 - y) * max (Ideal.log1p (-p)) (Ideal.ofBits .f32 0xC2C80000#32)) := by
  unfold bce
  rw [Ideal.ofBits_zero_f32, zero_sub, zero_sub]

end Cert.Loss

end
-- ==== Proof.SlabValue.lean ====
/-
  What one grid point of the kernel does to its 16-entry accumulator, as a value.

  At every point the body loads the two input slabs (a [2, 16, 2, 128, 128] block of the predictions and of
  the targets), forms the clamped cross-entropy of each pair of entries, adds the slab up over lanes, rows,
  its two depths and its two batch entries, and adds the sixteen channel sums to the accumulator.  At the
  first point it first overwrites the accumulator with zeros.  So a later point leaves `acc + s` and the first
  point `0 + s`, where `s c` is the sum of the slab's loss terms of channel `c` (`update_apply`).

  An entry of slab `t` is the array's entry at the same batch, channel, row and lane and at depth `2 t + r`,
  `r` the depth inside the slab (`predSlab_apply`, `trueSlab_apply`).
-/
import proofs.«137222_j21577915695561_1_alg».proof.Proof.Gen.KernelIdeal.Frame
import proofs.«137222_j21577915695561_1_alg».proof.Proof.TileSums
import proofs.«137222_j21577915695561_1_alg».proof.Proof.Loss
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Slab

open Cert.KernelIdeal Cert.KernelIdeal.Gen Cert.TileSums Cert.Loss

variable {F : FTy → Type} [FloatOps F]

theorem zeros1 : (![0] : Fin 1 → Nat) = fun _ => 0 := funext fun a => by fin_cases a; rfl
theorem zeros5 : (![0, 0, 0, 0, 0] : Fin 5 → Nat) = fun _ => 0 := funext fun a => by fin_cases a <;> rfl

/-- A point other than the first: the accumulator, found holding `acc`, is left at the update of `acc` by the two
    slabs — the body's one store covers the accumulator, and its loads read the three buffers whole. -/
theorem later_point (c : Dev nD) (i : grid0.Coords) (a1 : Memref sig .tc .vmem S2x16x2x128x128 .f32) (h1 : a1.IsWhole)
    (a2 : Memref sig .tc .vmem S2x16x2x128x128 .f32) (h2 : a2.IsWhole) (a3 : Memref sig .tc .vmem S16 .f32) (h3 : a3.IsWhole)
    (hc : ¬cond0_0 i) (x0 x1 : Vec F S2x16x2x128x128 .f32) (acc : Vec F S16 .f32) :
    out0_B_2 c i a1 h1 a2 h2 a3 h3 hc x0 x1 acc = k0_pay2 x0 x1 acc := by
  unfold out0_B_2
  rw [View.read_writes_eq_canon _ _ _ (cover0_B_2 c i a1 h1 a2 h2 a3 h3 hc x0 x1 acc)]
  unfold kernelRun0_B
  dsimp only
  sl_unfold_words
  rw [View.canon_unit_zero zeros1]
  simp only [View.readAt_eq_ld, h1.read_unread, h2.read_unread, h3.read_unread,
    View.ld_unit_zero (S := S2x16x2x128x128) zeros5, View.ld_unit_zero (S := S16) zeros1]

/-- The first point: the accumulator is overwritten with zeros, read back, and left at the update of the zeros. -/
theorem first_point (c : Dev nD) (i : grid0.Coords) (a1 : Memref sig .tc .vmem S2x16x2x128x128 .f32) (h1 : a1.IsWhole)
    (a2 : Memref sig .tc .vmem S2x16x2x128x128 .f32) (h2 : a2.IsWhole) (a3 : Memref sig .tc .vmem S16 .f32) (h3 : a3.IsWhole)
    (hc : cond0_0 i) (x0 x1 : Vec F S2x16x2x128x128 .f32) :
    out0_A_2 c i a1 h1 a2 h2 a3 h3 hc x0 x1 = k0_pay2 x0 x1 (k0_pay1 (F := F)) := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S16) zeros1, View.readCov_unit_zero (S := S16) _ zeros1]
  simp only [View.readAt_eq_ld, h1.read_unread, h2.read_unread,
    View.ld_unit_zero (S := S2x16x2x128x128) zeros5]

/-- The update at the extended reals: channel `c` of the accumulator gains the slab's loss terms of that channel. -/
theorem update_apply (x0 x1 : Vec Ideal S2x16x2x128x128 .f32) (acc : Vec Ideal S16 .f32) (j : S16.Idx) :
    k0_pay2 (F := Ideal) x0 x1 acc j = acc j + chanSum (fun a : Sslab.Idx => bce (x0 a) (x1 a)) (j 0).val := by
  unfold k0_pay2
  exact congrArg₂ (fun u v : EReal => u + v) (congrFun (shapeCast_self acc shapeCasts_S16_S16) j)
    (slab_reductions _ _ _ _ _ _ _ _ _ _ _ _ _ _ j)

/-- The zeros the first point stores. -/
theorem zeros_apply (j : S16.Idx) : k0_pay1 (F := Ideal) j = Ideal.ofBits .f32 0x00000000#32 := rfl

end Cert.KernelIdeal.Slab

end
-- ==== Proof.Totals.lean ====
/-
  The value both programs compute, over the extended reals.

  `channelTotals pred true c` is zero plus the sum, over every batch entry, depth, row and lane, of the clamped
  cross-entropy of `pred` against `true` at channel `c`.  `weightedMean total w` is what both programs do with the
  sixteen totals and the class weights `w`: divide each total by the constant 524288 = 2 · 64 · 128 · 128 (the
  number of entries per channel), weight, add up, and divide by the sum of the weights.  The two programs run
  these last steps operation for operation alike, so nothing about them needs proving beyond naming them once.
-/
import proofs.«137222_j21577915695561_1_alg».proof.Proof.TileSums
import proofs.«137222_j21577915695561_1_alg».proof.Proof.Loss

noncomputable section

namespace Cert.Totals

open Idealize.ShloMosaic Cert.TileSums Cert.Loss

abbrev S0 : Shape := ⟨0, ![]⟩

/-- Zero plus the sum of the loss terms of channel `j`. -/
def channelTotals (pred tgt : Sarr.Idx → EReal) : Sch.Idx → EReal :=
  fun j => Ideal.ofBits .f32 0x00000000#32 + chanSum (fun i : Sarr.Idx => bce (pred i) (tgt i)) (j 0).val

/-- The weighted mean of the per-channel means. -/
def weightedMean (hb : S0.BroadcastsInDim Sch (![] : Fin 0 → Fin Sch.rank)) (hr : Sch.ReducesTo [0] S0) (hu : 0 < S0.numel)
    (total w : FVec Ideal Sch .f32) : FVec Ideal S0 .f32 :=
  Host.divf
    (Host.reduceAdd (mulf w (Host.divf total (broadcastInDim Sch ![] hb (constant (F := Ideal) S0 .f32 0x4A000000#32))))
      (constant (F := Ideal) S0 .f32 0x00000000#32) hr hu)
    (Host.reduceAdd w (constant (F := Ideal) S0 .f32 0x00000000#32) hr hu)

end Cert.Totals

end
-- ==== Proof.KernelTotal.lean ====
/-
  The kernel's result as a value: the weighted mean of the channel totals of its two big arguments.

  The accumulator after grid point `n` holds, per channel, zero plus the loss terms of slabs `0 … n` of that
  channel (`running`, by induction on the point: the first point writes `0 + s₀`, every later one adds its
  slab's sums).  The thirty-two slabs tile the arrays along the depth axis, so after the last point the
  accumulator holds the channel totals of the whole arrays (`last_acc`).  The accumulator is written back once,
  after the last point, and its one block is the whole 16-entry result array (`result_array`); the host
  operations after the kernel then form the weighted mean of it (`tail_value`).
-/
import proofs.«137222_j21577915695561_1_alg».proof.Proof.SlabValue
import proofs.«137222_j21577915695561_1_alg».proof.Proof.Totals
import Idealize.ShloMosaic.Lib.StableHlo.Run

noncomputable section

open Idealize.ShloMosaic Idealize.ShloMosaic.TcCoe Idealize.SL.Sem
open Idealize.ShloMosaic.Pipeline (Dat)

namespace Cert.KernelIdeal.Total

open Cert.KernelIdeal Cert.KernelIdeal.Gen Cert.KernelIdeal.Slab Cert.TileSums Cert.Loss Cert.Totals

variable (m : (ℓ : Loc nD τ sig) → Buf (Elt Ideal) ℓ) (ρ : Dev nD → PrngReg)

/-- The two big arguments as the kernel finds them, and their slabs at a grid point, at their literal types. -/
abbrev predArr (c : Dev nD) : FVec Ideal S2x16x64x128x128 .f32 := m ((c : Thread nD τ).loc main_arg0)
abbrev trueArr (c : Dev nD) : FVec Ideal S2x16x64x128x128 .f32 := m ((c : Thread nD τ).loc main_arg1)
abbrev weights (c : Dev nD) : FVec Ideal S16 .f32 := m ((c : Thread nD τ).loc main_arg2)
abbrev predSlab (c : Dev nD) (t : Fin cfg0.N) : Vec Ideal S2x16x2x128x128 .f32 := iblk m c 0 t
abbrev trueSlab (c : Dev nD) (t : Fin cfg0.N) : Vec Ideal S2x16x2x128x128 .f32 := iblk m c 1 t

/-- Both input windows step along the depth axis only: block index `t` on axis 2, zero elsewhere. -/
theorem block_index : ∀ t : Fin cfg0.N,
    (win0_0.index t 0 = 0 ∧ win0_0.index t 1 = 0 ∧ win0_0.index t 2 = t.val ∧ win0_0.index t 3 = 0 ∧ win0_0.index t 4 = 0)
    ∧ (win0_1.index t 0 = 0 ∧ win0_1.index t 1 = 0 ∧ win0_1.index t 2 = t.val ∧ win0_1.index t 3 = 0 ∧ win0_1.index t 4 = 0) :=
  (by decide +kernel : ∀ t : Fin grid0.N,
    (win0_0.index t 0 = 0 ∧ win0_0.index t 1 = 0 ∧ win0_0.index t 2 = t.val ∧ win0_0.index t 3 = 0 ∧ win0_0.index t 4 = 0)
    ∧ (win0_1.index t 0 = 0 ∧ win0_1.index t 1 = 0 ∧ win0_1.index t 2 = t.val ∧ win0_1.index t 3 = 0 ∧ win0_1.index t 4 = 0))

/-- The grid point as a slab number. -/
abbrev slabNo (t : Fin cfg0.N) : Fin 32 := ⟨t.val, lt_of_lt_of_eq t.isLt N_0⟩

/-- An entry of the predictions' slab at point `t` is the array's entry at depth `2 t + r`. -/
theorem predSlab_apply (c : Dev nD) (t : Fin cfg0.N) (a : Sslab.Idx) :
    predSlab m c t a = predArr m c (place (slabNo t) a) := by
  obtain ⟨⟨i0, i1, i2, i3, i4⟩, -⟩ := block_index t
  show iblk m c 0 t a = _
  unfold iblk
  rw [View.read_apply]
  show V m c main_arg0 _ = m (c.tc.loc main_arg0) _
  rw [V_main_arg0]
  congr 1
  funext b
  apply Fin.ext
  match b with
  | ⟨0, _⟩ => show win0_0.index t 0 * 2 + 1 * (a 0).val = (a 0).val; rw [i0]; omega
  | ⟨1, _⟩ => show win0_0.index t 1 * 16 + 1 * (a 1).val = (a 1).val; rw [i1]; omega
  | ⟨2, _⟩ => show win0_0.index t 2 * 2 + 1 * (a 2).val = 2 * t.val + (a 2).val; rw [i2]; omega
  | ⟨3, _⟩ => show win0_0.index t 3 * 128 + 1 * (a 3).val = (a 3).val; rw [i3]; omega
  | ⟨4, _⟩ => show win0_0.index t 4 * 128 + 1 * (a 4).val = (a 4).val; rw [i4]; omega

/-- The same for the targets. -/
theorem trueSlab_apply (c : Dev nD) (t : Fin cfg0.N) (a : Sslab.Idx) :
    trueSlab m c t a = trueArr m c (place (slabNo t) a) := by
  obtain ⟨-, ⟨i0, i1, i2, i3, i4⟩⟩ := block_index t
  show iblk m c 1 t a = _
  unfold iblk
  rw [View.read_apply]
  show V m c main_arg1 _ = m (c.tc.loc main_arg1) _
  rw [V_main_arg1]
  congr 1
  funext b
  apply Fin.ext
  match b with
  | ⟨0, _⟩ => show win0_1.index t 0 * 2 + 1 * (a 0).val = (a 0).val; rw [i0]; omega
  | ⟨1, _⟩ => show win0_1.index t 1 * 16 + 1 * (a 1).val = (a 1).val; rw [i1]; omega
  | ⟨2, _⟩ => show win0_1.index t 2 * 2 + 1 * (a 2).val = 2 * t.val + (a 2).val; rw [i2]; omega
  | ⟨3, _⟩ => show win0_1.index t 3 * 128 + 1 * (a 3).val = (a 3).val; rw [i3]; omega
  | ⟨4, _⟩ => show win0_1.index t 4 * 128 + 1 * (a 4).val = (a 4).val; rw [i4]; omega

/-- Slab `t`'s contribution to channel `j` (zero past the grid, so that sums over `range` make sense). -/
def slabTerm (c : Dev nD) (t : ℕ) (j : S16.Idx) : EReal :=
  if h : t < cfg0.N then chanSum (fun a : Sslab.Idx => bce (predSlab m c ⟨t, h⟩ a) (trueSlab m c ⟨t, h⟩ a)) (j 0).val else 0

theorem slabTerm_of_lt (c : Dev nD) (t : ℕ) (h : t < cfg0.N) (j : S16.Idx) :
    slabTerm m c t j = chanSum (fun a : Sslab.Idx => bce (predSlab m c ⟨t, h⟩ a) (trueSlab m c ⟨t, h⟩ a)) (j 0).val :=
  dif_pos h

/-- THE RUNNING SUM: after point `n` the accumulator holds zero plus the contributions of slabs `0 … n`. -/
theorem running (c : Dev nD) : ∀ (n : ℕ) (h : n < cfg0.N) (j : S16.Idx),
    outsAt0 m c n h j = Ideal.ofBits .f32 0x00000000#32 + ∑ t ∈ Finset.range (n + 1), slabTerm m c t j
  | 0, h, j => by
    rw [outsAt0_A m c ⟨0, h⟩ rfl, first_point, update_apply, zeros_apply, Finset.sum_range_one, slabTerm_of_lt m c 0 h]
  | n + 1, h, j => by
    have hN : cfg0.N = 32 := N_0
    have hB : ¬(⟨n + 1, h⟩ : Fin cfg0.N).val % 32 = 0 := by dsimp only; omega
    rw [outsAt0_B m c ⟨n + 1, h⟩ hB, later_point, update_apply]
    show outsAt0 m c n _ j + _ = _
    rw [running c n _ j, Finset.sum_range_succ _ (n + 1), slabTerm_of_lt m c (n + 1) h, add_assoc]

/-- The last grid point. -/
abbrev lastPt : Fin cfg0.N := ⟨31, by rw [show cfg0.N = 32 from N_0]; decide⟩

/-- After the last point the accumulator holds the channel totals of the whole arrays. -/
theorem last_acc (c : Dev nD) :
    outsAt0 m c (lastPt).val (lastPt).isLt = channelTotals (predArr m c) (trueArr m c) := by
  funext j
  rw [running]
  unfold channelTotals
  refine congrArg (fun v : EReal => Ideal.ofBits .f32 0x00000000#32 + v) ?_
  rw [← sum_slabs, ← Fin.sum_univ_eq_sum_range (fun t => slabTerm m c t j) 32]
  refine Finset.sum_congr rfl fun t _ => ?_
  have ht : t.val < cfg0.N := lt_of_lt_of_eq t.isLt N_0.symm
  rw [slabTerm_of_lt m c t.val ht]
  refine congrArg (fun f : Sslab.Idx → EReal => chanSum f (j 0).val) (funext fun a => ?_)
  rw [predSlab_apply, trueSlab_apply]

/-- The single write-back, after the last point, writes the accumulator: the result array has one block, the
    whole of it. -/
theorem flushed_acc (c : Dev nD) (t : Fin cfg0.N) (hf : (cfg0.win 2).flush t = true) :
    (dats m 0 c).flushed 2 t = ((cfg0.win 2).blk t).view.read (Elt Ideal) (outsAt0 m c (lastPt).val (lastPt).isLt) := by
  have hN : cfg0.N = 32 := N_0
  have h31 : t.val = 31 := by have := (flush0_2 t).mp hf; have := t.isLt; omega
  obtain rfl : t = lastPt := Fin.ext h31
  show (cfg0.win 2).cut (grid0.coords lastPt) ((dats m 0 c).after 2 lastPt) = _
  rw [after0_2]
  have hoff : (fun a => win0_2.index lastPt a * main_v0.ty.shape.size a) = fun _ => 0 :=
    funext fun a => by fin_cases a; decide
  exact (Memref.read_access_unit_zero (Elt Ideal) main_v0 hoff (fun a => by rw [congrFun hoff a]; simp)
    (outsAt0 m c (lastPt).val (lastPt).isLt)).symm

/-- So the result array of the kernel ends holding the accumulator after the last point. -/
theorem result_array (c : Dev nD) : (dats m 0 c).arrAt 2 cfg0.N = outsAt0 m c (lastPt).val (lastPt).isLt :=
  (dats m 0 c).arrAt_eq_of_cover 2 (outsAt0 m c (lastPt).val (lastPt).isLt) (flushed_acc m c) fun i =>
    ⟨lastPt, (flush0_2 lastPt).mpr rfl, by
      show i ∈ ((View.whole main_v0).slice (win0_2.rect lastPt)).set
      rw [View.set_slice_whole, Rect.mem_set_unit]
      intro a
      have h0 : (i 0 : Nat) < 16 := (i 0).isLt
      match a with
      | ⟨0, _⟩ =>
        show win0_2.index lastPt 0 * win0_2.size 0 ≤ (i 0 : Nat)
          ∧ (i 0 : Nat) < win0_2.index lastPt 0 * win0_2.size 0 + win0_2.xsize (grid0.coords lastPt) 0
        rw [show win0_2.index lastPt 0 * win0_2.size 0 = 0 from by decide +kernel,
          show win0_2.xsize (grid0.coords lastPt) 0 = 16 from by decide +kernel]
        omega⟩

/-- The host operations after the kernel leave, in the result buffer, the weighted mean of the result array. -/
theorem tail_value (c : Dev nD) :
    Pipeline.afterTail₀ cfgs (dats m) 0 (V0 m) [hostOps1] c main_v6
      = weightedMean bcast_S_S16 reducesTo_S16_S_d0 h_S_ (channelTotals (predArr m c) (trueArr m c)) (weights m c) := by
  unfold Pipeline.afterTail₀
  show StableHlo.after hostOps1 _ (Proc.devRef .tc main_v6) = _
  after_results
  have hacc : Pipeline.withArrays (cfgs 0).spec c (V0 m c) (fun w => (dats m 0 c).arrAt w (cfgs 0).N)
      (Proc.devRef .tc main_v0) = channelTotals (predArr m c) (trueArr m c) :=
    (Pipeline.withArrays_arr spec0 launch0.win.arr_inj c _ _ 2).trans ((result_array m c).trans (last_acc m c))
  have hw : Pipeline.withArrays (cfgs 0).spec c (V0 m c) (fun w => (dats m 0 c).arrAt w (cfgs 0).N)
      (Proc.devRef .tc main_arg2) = weights m c :=
    (Pipeline.withArrays_of_ne _ c (V0 m c) _ main_arg2
      (by exact (by decide : ∀ w, Pipeline.arrRef spec0 w ≠ main_arg2))).trans (V_main_arg2 m c)
  rw [hacc, hw]
  rfl

/-- THE KERNEL'S RUN, READ: every weakly fair execution terminates with the result buffer at the weighted mean of
    the channel totals of the arguments, and the arguments as they were. -/
theorem run : θ_run defs (onTc (τ := τ) (main (F := Ideal))) ⟨m, fun _ => 0, ρ⟩ fun r => ∀ c : Dev nD,
      r.2.mem ((c : Thread nD τ).loc main_v6)
        = weightedMean bcast_S_S16 reducesTo_S16_S_d0 h_S_ (channelTotals (predArr m c) (trueArr m c)) (weights m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v6 (Pipeline.mem_restRefs_of main_v6 (by decide) (by decide))).trans (tail_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Total

end
-- ==== Proof.RefValue.lean ====
/-
  The reference's result as a value: the weighted mean of the channel totals of its two big arguments.

  Its first sixteen operations form the loss term entry by entry (`loss_apply`); the seventeenth and eighteenth
  sum it over batch, depth, rows and lanes from zero, which per channel is zero plus the sum of that channel's
  terms (`totals_apply`); the rest is the weighted mean.
-/
import proofs.«137222_j21577915695561_1_alg».proof.Proof.Gen.ReferenceIdeal.Run
import proofs.«137222_j21577915695561_1_alg».proof.Proof.Gen.ReferenceIdeal.Read
import proofs.«137222_j21577915695561_1_alg».proof.Proof.Totals
import Idealize.ShloMosaic.Lib.IdealHost

noncomputable section

open Idealize.ShloMosaic Idealize.ShloMosaic.TcCoe Idealize.SL.Sem

namespace Cert.ReferenceIdeal.RefValue

open Cert.ReferenceIdeal Cert.ReferenceIdeal.Gen Cert.ReferenceIdeal.Read Cert.TileSums Cert.Loss Cert.Totals

/-- Entry `i` of the negated sum of the two products is the loss term of the arguments' entries at `i`. -/
theorem loss_apply (x0 x1 : FVec Ideal S2x16x64x128x128 .f32) (i : S2x16x64x128x128.Idx) :
    val_main_v12 (F := Ideal) x0 x1 i = bce (x0 i) (x1 i) := by
  rw [bce_eq_neg, val_main_v12_apply, val_main_v11_apply, val_main_v7_apply, val_main_v10_apply, val_main_v2_apply,
    val_main_v9_apply, val_main_v6_apply, val_main_v0_apply, val_main_v1_apply, val_main_cst_apply, val_main_v8_apply,
    val_main_cst_1_apply, val_main_v4_apply, val_main_v3_apply, val_main_v5_apply, val_main_cst_0_apply]
  rfl

/-- The sum over the four reduced axes, channel by channel. -/
theorem totals_apply (x0 x1 : FVec Ideal S2x16x64x128x128 .f32) (j : S16.Idx) :
    val_main_v13 (F := Ideal) x0 x1 j = channelTotals x0 x1 j := by
  unfold val_main_v13 channelTotals
  rw [ValueIdx.hostReduceAdd_apply, host_reduction]
  refine congrArg₂ (fun u v : EReal => u + v) rfl ?_
  exact congrArg (fun f : Sarr.Idx → EReal => chanSum f (j 0).val) (funext fun i => loss_apply x0 x1 i)

/-- The reference's result. -/
theorem result_eq (x0 x1 : FVec Ideal S2x16x64x128x128 .f32) (x2 : FVec Ideal S16 .f32) :
    val_main_v19 (F := Ideal) x0 x1 x2
      = weightedMean bcast_S_S16 reducesTo_S16_S_d0 h_S_ (channelTotals x0 x1) x2 := by
  have e : val_main_v13 (F := Ideal) x0 x1 = channelTotals x0 x1 := funext (totals_apply x0 x1)
  unfold val_main_v19 val_main_v17 val_main_v16 val_main_v15
  rw [e]
  rfl

end Cert.ReferenceIdeal.RefValue

end
-- ==== Proof.lean ====
/-
  The kernel and its reference compute one number: the class-weighted mean of the per-channel means of a
  clamped binary cross-entropy,

      ( Σ_c w_c · (T_c / 524288) ) / ( Σ_c w_c ),   T_c = 0 + Σ_{b, d, h, l} bce(pred[b, c, d, h, l], true[b, c, d, h, l]).

  The reference forms the loss term entry by entry and sums it over batch, depth, rows and lanes in one
  reduction.  The kernel walks the depth axis in thirty-two slabs of two depths; at each it sums the slab's loss
  terms over lanes, rows, depths and batch into sixteen channel sums and adds them to an accumulator it zeroed at
  the first slab.  Over the extended reals addition is commutative and associative without any side condition,
  so the order and grouping of these sums do not matter, and the slabs tile the arrays: both totals are the same
  sum over the same index set (Proof/TileSums.lean).  The loss terms agree because `0 - x = -x` on the extended
  reals (Proof/Loss.lean).  The steps after the totals are the same operations in both programs
  (Proof/Totals.lean).  The precondition (finite inputs) is not needed for any of this.

  The three frame claims: the two kernels' are the generated frame runs; the reference's is its generated run with
  the result dropped.  The idealization rewrote nothing, so `preserves` is trivial.
-/
import proofs.«137222_j21577915695561_1_alg».proof.Defs
import proofs.«137222_j21577915695561_1_alg».proof.Proof.Gen.Kernel
import proofs.«137222_j21577915695561_1_alg».proof.Proof.Gen.Kernel.Skeleton
import proofs.«137222_j21577915695561_1_alg».proof.Proof.Gen.Kernel.Launch
import proofs.«137222_j21577915695561_1_alg».proof.Proof.Gen.Kernel.Points
import proofs.«137222_j21577915695561_1_alg».proof.Proof.Gen.Kernel.Frame
import proofs.«137222_j21577915695561_1_alg».proof.Proof.Gen.KernelIdeal
import proofs.«137222_j21577915695561_1_alg».proof.Proof.Gen.KernelIdeal.Skeleton
import proofs.«137222_j21577915695561_1_alg».proof.Proof.Gen.KernelIdeal.Launch
import proofs.«137222_j21577915695561_1_alg».proof.Proof.Gen.KernelIdeal.Points
import proofs.«137222_j21577915695561_1_alg».proof.Proof.Gen.KernelIdeal.Frame
import proofs.«137222_j21577915695561_1_alg».proof.Proof.Gen.ReferenceIdeal
import proofs.«137222_j21577915695561_1_alg».proof.Proof.Gen.ReferenceIdeal.Run
import proofs.«137222_j21577915695561_1_alg».proof.Proof.Gen.ReferenceIdeal.Read
import proofs.«137222_j21577915695561_1_alg».proof.Proof.Gen.Pre_finite_inputs
import proofs.«137222_j21577915695561_1_alg».proof.Proof.KernelTotal
import proofs.«137222_j21577915695561_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both runs end with the result at the weighted mean of the channel totals of the (agreeing) arguments. -/
theorem algebraic : Cert.algebraic_KernelIdeal_ReferenceIdeal := by
  intro m ρ m' ρ' _ hagree
  refine ⟨fun c => Cert.Totals.weightedMean Cert.KernelIdeal.Facts₀.bcast_S_S16 Cert.KernelIdeal.Facts₀.reducesTo_S16_S_d0
      Cert.KernelIdeal.Facts₀.h_S_
      (Cert.Totals.channelTotals (Cert.KernelIdeal.Total.predArr m c) (Cert.KernelIdeal.Total.trueArr m c))
      (Cert.KernelIdeal.Total.weights m c), Cert.KernelIdeal.Total.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
